-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S8x16384x3x3x3 : S_.BroadcastsInDim S8x16384x3x3x3 (![] : Fin 0 → Fin S8x16384x3x3x3.rank)
  reducesTo_S8x16384x3x3x3_S_d0_1_2_3_4 : S8x16384x3x3x3.ReducesTo [0, 1, 2, 3, 4] S_
  bcast_S_S16384x24 : S_.BroadcastsInDim S16384x24 (![] : Fin 0 → Fin S16384x24.rank)
  reducesTo_S16384x24_S_d0_1 : S16384x24.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S16384x24 .f32) (main_arg6 : FVec F S64x3 .f32) (main_arg7 : FVec F S64 .f32) (main_v13 : IVec S_ 1) (main_v16 : IVec S16384x24 1) : IVec S_ 1 :=
  let main_c_5 : IVec S_ 1 := constantI S_ 1 1#1
  let main_v17 : IVec S_ 1 := (fun x v => Host.reduce IntOp.andi x v reducesTo_S16384x24_S_d0_1 h_S_) main_v16 main_c_5
  let main_v18 : IVec S_ 1 := andi main_v13 main_v17
  let main_v19 : FVec F S16384x24 .f32 := Host.absf main_arg5
  let main_cst_6 : FVec F S_ .f32 := constant S_ .f32 0x7F800000#32
  let main_v20 : FVec F S16384x24 .f32 := broadcastInDim S16384x24 ![] bcast_S_S16384x24 main_cst_6
  let main_v21 : IVec S16384x24 1 := cmpf .olt main_v19 main_v20
  let main_c_7 : IVec S_ 1 := constantI S_ 1 1#1
  let main_v22 : IVec S_ 1 := (fun x v => Host.reduce IntOp.andi x v reducesTo_S16384x24_S_d0_1 h_S_) main_v21 main_c_7
  let main_v23 : IVec S_ 1 := andi main_v18 main_v22
  let main_v24 : FVec F S64x3 .f32 := Host.absf main_arg6
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x16384x3 .f32) (main_arg1 : IVec S8x16384x3 32) (main_arg2 : FVec F S8x16384x3x3x3 .f32) (main_arg3 : FVec F S16384x24 .f32) (main_arg4 : FVec F S16384x24 .f32) (main_arg5 : FVec F S16384x24 .f32) (main_arg6 : FVec F S64x3 .f32) (main_arg7 : FVec F S64 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S8x16384x3x3x3 .f32 := Host.absf main_arg2
  let main_cst_0 : FVec F S_ .f32 := constant S_ .f32 0x7F800000#32
  let main_v5 : FVec F S8x16384x3x3x3 .f32 := broadcastInDim S8x16384x3x3x3 ![] bcast_S_S8x16384x3x3x3 main_cst_0
  let main_v6 : IVec S8x16384x3x3x3 1 := cmpf .olt main_v4 main_v5
  let main_c_1 : IVec S_ 1 := constantI S_ 1 1#1
  let main_v7 : IVec S_ 1 := (fun x v => Host.reduce IntOp.andi x v reducesTo_S8x16384x3x3x3_S_d0_1_2_3_4 h_S_) main_v6 main_c_1
  let main_v8 : IVec S_ 1 := andi main_v3 main_v7
  let main_v9 : FVec F S16384x24 .f32 := Host.absf main_arg3
  let main_cst_2 : FVec F S_ .f32 := constant S_ .f32 0x7F800000#32
  let main_v10 : FVec F S16384x24 .f32 := broadcastInDim S16384x24 ![] bcast_S_S16384x24 main_cst_2
  let main_v11 : IVec S16384x24 1 := cmpf .olt main_v9 main_v10
  let main_c_3 : IVec S_ 1 := constantI S_ 1 1#1
  let main_v12 : IVec S_ 1 := (fun x v => Host.reduce IntOp.andi x v reducesTo_S16384x24_S_d0_1 h_S_) main_v11 main_c_3
  let main_v13 : IVec S_ 1 := andi main_v8 main_v12
  let main_v14 : FVec F S16384x24 .f32 := Host.absf main_arg4
  let main_cst_4 : FVec F S_ .f32 := constant S_ .f32 0x7F800000#32
  let main_v15 : FVec F S16384x24 .f32 := broadcastInDim S16384x24 ![] bcast_S_S16384x24 main_cst_4
  let main_v16 : IVec S16384x24 1 := cmpf .olt main_v14 main_v15
  fn_part1 (F := F) main_arg5 main_arg6 main_arg7 main_v13 main_v16
-- ==== Kernel.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S8x16384x27 : Shape := ⟨3, ![8, 16384, 27]⟩
abbrev S3x64 : Shape := ⟨2, ![3, 64]⟩
abbrev S1x64 : Shape := ⟨2, ![1, 64]⟩
abbrev S8x16384x64 : Shape := ⟨3, ![8, 16384, 64]⟩
abbrev S1x2048x3 : Shape := ⟨3, ![1, 2048, 3]⟩
abbrev S1x2048x27 : Shape := ⟨3, ![1, 2048, 27]⟩
abbrev S2048x24 : Shape := ⟨2, ![2048, 24]⟩
abbrev S1x2048x64 : Shape := ⟨3, ![1, 2048, 64]⟩
abbrev S2048x3 : Shape := ⟨2, ![2048, 3]⟩
abbrev S2048x1 : Shape := ⟨2, ![2048, 1]⟩
abbrev S2048x64 : Shape := ⟨2, ![2048, 64]⟩

abbrev nBuf : Space → Nat
  | .hbm => 12
  | .vmem => 14
  | .smem => 0
  | _ => 0

abbrev bufTy : (tb : Table) → Fin (tcTables nBuf tb) → BufTy
  | .hbm, ⟨0, _⟩ => ⟨S8x16384x3, .f32⟩
  | .hbm, ⟨1, _⟩ => ⟨S8x16384x3, .i32⟩
  | .hbm, ⟨2, _⟩ => ⟨S8x16384x3x3x3, .f32⟩
  | .hbm, ⟨3, _⟩ => ⟨S16384x24, .f32⟩
  | .hbm, ⟨4, _⟩ => ⟨S16384x24, .f32⟩
  | .hbm, ⟨5, _⟩ => ⟨S16384x24, .f32⟩
  | .hbm, ⟨6, _⟩ => ⟨S64x3, .f32⟩
  | .hbm, ⟨7, _⟩ => ⟨S64, .f32⟩
  | .hbm, ⟨8, _⟩ => ⟨S8x16384x27, .f32⟩
  | .hbm, ⟨9, _⟩ => ⟨S3x64, .f32⟩
  | .hbm, ⟨10, _⟩ => ⟨S1x64, .f32⟩
  | .hbm, ⟨11, _⟩ => ⟨S8x16384x64, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x27, .f32⟩
  | .local _ .vmem, ⟨3, _⟩ => ⟨S1x2048x27, .f32⟩
  | .local _ .vmem, ⟨4, _⟩ => ⟨S2048x24, .f32⟩
  | .local _ .vmem, ⟨5, _⟩ => ⟨S2048x24, .f32⟩
  | .local _ .vmem, ⟨6, _⟩ => ⟨S2048x24, .f32⟩
  | .local _ .vmem, ⟨7, _⟩ => ⟨S2048x24, .f32⟩
  | .local _ .vmem, ⟨8, _⟩ => ⟨S2048x24, .f32⟩
  | .local _ .vmem, ⟨9, _⟩ => ⟨S2048x24, .f32⟩
  | .local _ .vmem, ⟨10, _⟩ => ⟨S3x64, .f32⟩
  | .local _ .vmem, ⟨11, _⟩ => ⟨S1x64, .f32⟩
  | .local _ .vmem, ⟨12, _⟩ => ⟨S1x2048x64, .f32⟩
  | .local _ .vmem, ⟨13, _⟩ => ⟨S1x2048x64, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x16384x3x3x3_S8x16384x27 : S8x16384x3x3x3.ShapeCasts S8x16384x27
  transposes_S64x3_S3x64_1_0 : S64x3.Transposes [1, 0] S3x64
  shapeCasts_S64_S1x64 : S64.ShapeCasts S1x64
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2048x27_S1x2048x3_0_0_0 : ∀ a, (![0, 0, 0] : Fin 3 → Nat) a + S1x2048x3.size a ≤ S1x2048x27.size a
  inb_S1x2048x27_S1x2048x3_0_0_3 : ∀ a, (![0, 0, 3] : Fin 3 → Nat) a + S1x2048x3.size a ≤ S1x2048x27.size a
  inb_S1x2048x27_S1x2048x3_0_0_6 : ∀ a, (![0, 0, 6] : Fin 3 → Nat) a + S1x2048x3.size a ≤ S1x2048x27.size a
  inb_S2048x24_S2048x1_0_0 : ∀ a, (![0, 0] : Fin 2 → Nat) a + S2048x1.size a ≤ S2048x24.size a
  h_S2048x1 : 0 < S2048x1.numel
  broadcasts_S2048x1_S2048x3 : S2048x1.Broadcasts S2048x3
  broadcasts_S1x64_S2048x64 : S1x64.Broadcasts S2048x64
  inb_S2048x24_S2048x1_0_3 : ∀ a, (![0, 3] : Fin 2 → Nat) a + S2048x1.size a ≤ S2048x24.size a
  inb_S2048x24_S2048x1_0_6 : ∀ a, (![0, 6] : Fin 2 → Nat) a + S2048x1.size a ≤ S2048x24.size a
  inb_S2048x24_S2048x1_0_9 : ∀ a, (![0, 9] : Fin 2 → Nat) a + S2048x1.size a ≤ S2048x24.size a
  inb_S2048x24_S2048x1_0_12 : ∀ a, (![0, 12] : Fin 2 → Nat) a + S2048x1.size a ≤ S2048x24.size a
  inb_S2048x24_S2048x1_0_15 : ∀ a, (![0, 15] : Fin 2 → Nat) a + S2048x1.size a ≤ S2048x24.size a
  inb_S2048x24_S2048x1_0_18 : ∀ a, (![0, 18] : Fin 2 → Nat) a + S2048x1.size a ≤ S2048x24.size a
  inb_S2048x24_S2048x1_0_21 : ∀ a, (![0, 21] : Fin 2 → Nat) a + S2048x1.size a ≤ S2048x24.size a
  inb_S1x2048x27_S1x2048x3_0_0_9 : ∀ a, (![0, 0, 9] : Fin 3 → Nat) a + S1x2048x3.size a ≤ S1x2048x27.size a
  inb_S1x2048x27_S1x2048x3_0_0_12 : ∀ a, (![0, 0, 12] : Fin 3 → Nat) a + S1x2048x3.size a ≤ S1x2048x27.size a
  inb_S1x2048x27_S1x2048x3_0_0_15 : ∀ a, (![0, 0, 15] : Fin 3 → Nat) a + S1x2048x3.size a ≤ S1x2048x27.size a
  inb_S2048x24_S2048x1_0_1 : ∀ a, (![0, 1] : Fin 2 → Nat) a + S2048x1.size a ≤ S2048x24.size a
  inb_S2048x24_S2048x1_0_4 : ∀ a, (![0, 4] : Fin 2 → Nat) a + S2048x1.size a ≤ S2048x24.size a
  inb_S2048x24_S2048x1_0_7 : ∀ a, (![0, 7] : Fin 2 → Nat) a + S2048x1.size a ≤ S2048x24.size a
  inb_S2048x24_S2048x1_0_10 : ∀ a, (![0, 10] : Fin 2 → Nat) a + S2048x1.size a ≤ S2048x24.size a
  inb_S2048x24_S2048x1_0_13 : ∀ a, (![0, 13] : Fin 2 → Nat) a + S2048x1.size a ≤ S2048x24.size a
  inb_S2048x24_S2048x1_0_16 : ∀ a, (![0, 16] : Fin 2 → Nat) a + S2048x1.size a ≤ S2048x24.size a
  inb_S2048x24_S2048x1_0_19 : ∀ a, (![0, 19] : Fin 2 → Nat) a + S2048x1.size a ≤ S2048x24.size a
  inb_S2048x24_S2048x1_0_22 : ∀ a, (![0, 22] : Fin 2 → Nat) a + S2048x1.size a ≤ S2048x24.size a
  inb_S1x2048x27_S1x2048x3_0_0_18 : ∀ a, (![0, 0, 18] : Fin 3 → Nat) a + S1x2048x3.size a ≤ S1x2048x27.size a
  inb_S1x2048x27_S1x2048x3_0_0_21 : ∀ a, (![0, 0, 21] : Fin 3 → Nat) a + S1x2048x3.size a ≤ S1x2048x27.size a
  inb_S1x2048x27_S1x2048x3_0_0_24 : ∀ a, (![0, 0, 24] : Fin 3 → Nat) a + S1x2048x3.size a ≤ S1x2048x27.size a
  inb_S2048x24_S2048x1_0_2 : ∀ a, (![0, 2] : Fin 2 → Nat) a + S2048x1.size a ≤ S2048x24.size a
  inb_S2048x24_S2048x1_0_5 : ∀ a, (![0, 5] : Fin 2 → Nat) a + S2048x1.size a ≤ S2048x24.size a
  inb_S2048x24_S2048x1_0_8 : ∀ a, (![0, 8] : Fin 2 → Nat) a + S2048x1.size a ≤ S2048x24.size a
  inb_S2048x24_S2048x1_0_11 : ∀ a, (![0, 11] : Fin 2 → Nat) a + S2048x1.size a ≤ S2048x24.size a
  inb_S2048x24_S2048x1_0_14 : ∀ a, (![0, 14] : Fin 2 → Nat) a + S2048x1.size a ≤ S2048x24.size a
  inb_S2048x24_S2048x1_0_17 : ∀ a, (![0, 17] : Fin 2 → Nat) a + S2048x1.size a ≤ S2048x24.size a
  inb_S2048x24_S2048x1_0_20 : ∀ a, (![0, 20] : Fin 2 → Nat) a + S2048x1.size a ≤ S2048x24.size a
  inb_S2048x24_S2048x1_0_23 : ∀ a, (![0, 23] : Fin 2 → Nat) a + S2048x1.size a ≤ S2048x24.size a
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x3_S3x64_S2048x64_1_0_0_1_n_n_wf : DotDims.WF S2048x3 S3x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x16384x3.size a
  hwx0_0 : ∀ i : grid0.Coords, EltTy.bits .f32 = 32 ∨ (Rect.block (s := S8x16384x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x27.size a ≤ S8x16384x27.size a
  hwx0_1 : ∀ i : grid0.Coords, EltTy.bits .f32 = 32 ∨ (Rect.block (s := S8x16384x27) S1x2048x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x24.size a ≤ S16384x24.size a
  hwx0_2 : ∀ i : grid0.Coords, EltTy.bits .f32 = 32 ∨ (Rect.block (s := S16384x24) S2048x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x24.size a ≤ S16384x24.size a
  hwx0_3 : ∀ i : grid0.Coords, EltTy.bits .f32 = 32 ∨ (Rect.block (s := S16384x24) S2048x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x24.size a ≤ S16384x24.size a
  hwx0_4 : ∀ i : grid0.Coords, EltTy.bits .f32 = 32 ∨ (Rect.block (s := S16384x24) S2048x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S8x16384x64.size a
  hwx0_7 : ∀ i : grid0.Coords, EltTy.bits .f32 = 32 ∨ (Rect.block (s := S8x16384x64) S1x2048x64.size (cc0_transform_7 i) (hinb0_7 i)).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2048x24.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S8x16384x24x3x3 : Shape := ⟨5, ![8, 16384, 24, 3, 3]⟩
abbrev S8x16384x24x1x3 : Shape := ⟨5, ![8, 16384, 24, 1, 3]⟩
abbrev S8x16384x24x3 : Shape := ⟨4, ![8, 16384, 24, 3]⟩
abbrev S1x16384x24x1 : Shape := ⟨4, ![1, 16384, 24, 1]⟩
abbrev S8x16384x1x3 : Shape := ⟨4, ![8, 16384, 1, 3]⟩
abbrev S8x16384x24x64 : Shape := ⟨4, ![8, 16384, 24, 64]⟩
abbrev S1x1x1x64 : Shape := ⟨4, ![1, 1, 1, 64]⟩
abbrev S_ : Shape := ⟨0, ![]⟩
abbrev S8x16384x64 : Shape := ⟨3, ![8, 16384, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x16384x3, .i32⟩
  | .hbm, ⟨2, _⟩ => ⟨S8x16384x3x3x3, .f32⟩
  | .hbm, ⟨3, _⟩ => ⟨S16384x24, .f32⟩
  | .hbm, ⟨4, _⟩ => ⟨S16384x24, .f32⟩
  | .hbm, ⟨5, _⟩ => ⟨S16384x24, .f32⟩
  | .hbm, ⟨6, _⟩ => ⟨S64x3, .f32⟩
  | .hbm, ⟨7, _⟩ => ⟨S64, .f32⟩
  | .hbm, ⟨8, _⟩ => ⟨S8x16384x24x3x3, .f32⟩
  | .hbm, ⟨9, _⟩ => ⟨S8x16384x24x1x3, .f32⟩
  | .hbm, ⟨10, _⟩ => ⟨S8x16384x24x3, .f32⟩
  | .hbm, ⟨11, _⟩ => ⟨S8x16384x24x1x3, .f32⟩
  | .hbm, ⟨12, _⟩ => ⟨S8x16384x24x3, .f32⟩
  | .hbm, ⟨13, _⟩ => ⟨S8x16384x24x1x3, .f32⟩
  | .hbm, ⟨14, _⟩ => ⟨S8x16384x24x3, .f32⟩
  | .hbm, ⟨15, _⟩ => ⟨S1x16384x24x1, .f32⟩
  | .hbm, ⟨16, _⟩ => ⟨S1x16384x24x1, .f32⟩
  | .hbm, ⟨17, _⟩ => ⟨S1x16384x24x1, .f32⟩
  | .hbm, ⟨18, _⟩ => ⟨S8x16384x24x3, .f32⟩
  | .hbm, ⟨19, _⟩ => ⟨S8x16384x24x3, .f32⟩
  | .hbm, ⟨20, _⟩ => ⟨S8x16384x24x3, .f32⟩
  | .hbm, ⟨21, _⟩ => ⟨S8x16384x24x3, .f32⟩
  | .hbm, ⟨22, _⟩ => ⟨S8x16384x24x3, .f32⟩
  | .hbm, ⟨23, _⟩ => ⟨S8x16384x24x3, .f32⟩
  | .hbm, ⟨24, _⟩ => ⟨S8x16384x24x3, .f32⟩
  | .hbm, ⟨25, _⟩ => ⟨S8x16384x24x3, .f32⟩
  | .hbm, ⟨26, _⟩ => ⟨S8x16384x1x3, .f32⟩
  | .hbm, ⟨27, _⟩ => ⟨S8x16384x24x3, .f32⟩
  | .hbm, ⟨28, _⟩ => ⟨S8x16384x24x3, .f32⟩
  | .hbm, ⟨29, _⟩ => ⟨S8x16384x24x64, .f32⟩
  | .hbm, ⟨30, _⟩ => ⟨S1x1x1x64, .f32⟩
  | .hbm, ⟨31, _⟩ => ⟨S8x16384x24x64, .f32⟩
  | .hbm, ⟨32, _⟩ => ⟨S8x16384x24x64, .f32⟩
  | .hbm, ⟨33, _⟩ => ⟨S_, .f32⟩
  | .hbm, ⟨34, _⟩ => ⟨S8x16384x24x64, .f32⟩
  | .hbm, ⟨35, _⟩ => ⟨S8x16384x24x64, .f32⟩
  | .hbm, ⟨36, _⟩ => ⟨S_, .f32⟩
  | .hbm, ⟨37, _⟩ => ⟨S8x16384x64, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  concatenates_S8x16384x3x3x3_S8x16384x3x3x3_S8x16384x3x3x3_S8x16384x3x3x3_S8x16384x3x3x3_S8x16384x3x3x3_S8x16384x3x3x3_S8x16384x3x3x3_S8x16384x24x3x3_d2 : Shape.Concatenates [S8x16384x3x3x3, S8x16384x3x3x3, S8x16384x3x3x3, S8x16384x3x3x3, S8x16384x3x3x3, S8x16384x3x3x3, S8x16384x3x3x3, S8x16384x3x3x3] S8x16384x24x3x3 2
  slices_S8x16384x24x3x3_S8x16384x24x1x3_0_0_0_0_0 : S8x16384x24x3x3.Slices ![0, 0, 0, 0, 0] S8x16384x24x1x3
  shapeCasts_S8x16384x24x1x3_S8x16384x24x3 : S8x16384x24x1x3.ShapeCasts S8x16384x24x3
  slices_S8x16384x24x3x3_S8x16384x24x1x3_0_0_0_1_0 : S8x16384x24x3x3.Slices ![0, 0, 0, 1, 0] S8x16384x24x1x3
  slices_S8x16384x24x3x3_S8x16384x24x1x3_0_0_0_2_0 : S8x16384x24x3x3.Slices ![0, 0, 0, 2, 0] S8x16384x24x1x3
  bcast_S16384x24_S1x16384x24x1_1_2 : S16384x24.BroadcastsInDim S1x16384x24x1 (![1, 2] : Fin 2 → Fin S1x16384x24x1.rank)
  bcast_S1x16384x24x1_S8x16384x24x3_0_1_2_3 : S1x16384x24x1.BroadcastsInDim S8x16384x24x3 (![0, 1, 2, 3] : Fin 4 → Fin S8x16384x24x3.rank)
  bcast_S8x16384x3_S8x16384x1x3_0_1_3 : S8x16384x3.BroadcastsInDim S8x16384x1x3 (![0, 1, 3] : Fin 3 → Fin S8x16384x1x3.rank)
  bcast_S8x16384x1x3_S8x16384x24x3_0_1_2_3 : S8x16384x1x3.BroadcastsInDim S8x16384x24x3 (![0, 1, 2, 3] : Fin 4 → Fin S8x16384x24x3.rank)
  bcast_S64_S1x1x1x64_3 : S64.BroadcastsInDim S1x1x1x64 (![3] : Fin 1 → Fin S1x1x1x64.rank)
  bcast_S1x1x1x64_S8x16384x24x64_0_1_2_3 : S1x1x1x64.BroadcastsInDim S8x16384x24x64 (![0, 1, 2, 3] : Fin 4 → Fin S8x16384x24x64.rank)
  bcast_S_S8x16384x24x64 : S_.BroadcastsInDim S8x16384x24x64 (![] : Fin 0 → Fin S8x16384x24x64.rank)
  reducesTo_S8x16384x24x64_S8x16384x64_d2 : S8x16384x24x64.ReducesTo [2] S8x16384x64
  h_S_ : 0 < S_.numel
  dot_S8x16384x24x3_S64x3_S8x16384x24x64_3_1_012_0_n_n_wf : DotDims.WF S8x16384x24x3 S64x3 S8x16384x24x64 [3] [1] [0, 1, 2] [0] [] []

variable [Facts₀]

def dot_S8x16384x24x3_S64x3_S8x16384x24x64_3_1_012_0_n_n : DotDims S8x16384x24x3 S64x3 S8x16384x24x64 where
  lhsContracting := [3]
  rhsContracting := [1]
  lhsNonContracting := [0, 1, 2]
  rhsNonContracting := [0]
  lhsBatch := []
  rhsBatch := []
  wf := dot_S8x16384x24x3_S64x3_S8x16384x24x64_3_1_012_0_n_n_wf

class Facts : Prop extends Facts₀ where

variable [Facts]
-- ==== Proof.Order.lean ====
/-
  The kernel keeps a running maximum over the 24 samples, visiting them neighbour by neighbour (a neighbour's eight
  samples are those congruent to it modulo 3); the reference takes the maximum over the sample axis from the bottom
  element. In a linear order both are the least upper bound of the 24 values: a left fold of `max` over a list is
  below a bound iff its start and every listed value are, and is above its start and every listed value.
-/
import Mathlib.Data.Finset.Fold
import Mathlib.Data.Fintype.Basic
import Mathlib.Order.Lattice

namespace Cert.Surface

variable {ι α : Type} [LinearOrder α]

/-- The start of a running maximum is below its end. -/
theorem start_le_foldl_max (f : ι → α) : ∀ (l : List ι) (a : α), a ≤ l.foldl (fun acc s => max acc (f s)) a
  | [], a => le_rfl
  | s :: l, a => (le_max_left a (f s)).trans (start_le_foldl_max f l (max a (f s)))

/-- Every listed value is below the running maximum's end. -/
theorem le_foldl_max_of_mem (f : ι → α) : ∀ (l : List ι) (a : α) (s : ι), s ∈ l → f s ≤ l.foldl (fun acc s => max acc (f s)) a
  | [], _, _, h => absurd h (List.not_mem_nil)
  | s' :: l, a, s, h => by
    rcases List.mem_cons.1 h with rfl | h'
    · exact (le_max_right a (f s)).trans (start_le_foldl_max f l (max a (f s)))
    · exact le_foldl_max_of_mem f l (max a (f s')) s h'

/-- A bound of the start and of every listed value bounds the running maximum. -/
theorem foldl_max_le (f : ι → α) (c : α) : ∀ (l : List ι) (a : α), a ≤ c → (∀ s ∈ l, f s ≤ c) → l.foldl (fun acc s => max acc (f s)) a ≤ c
  | [], _, ha, _ => ha
  | s :: l, a, ha, hl =>
    foldl_max_le f c l (max a (f s)) (max_le ha (hl s (List.mem_cons_self ..))) (fun s' hs' => hl s' (List.mem_cons_of_mem _ hs'))

/-- The order in which the kernel visits the samples after sample 0: neighbour 0's (0, 3, …, 21), then neighbour 1's
    (1, 4, …, 22), then neighbour 2's (2, 5, …, 23). -/
def visitOrder : List (Fin 24) := [3, 6, 9, 12, 15, 18, 21, 1, 4, 7, 10, 13, 16, 19, 22, 2, 5, 8, 11, 14, 17, 20, 23]

/-- Sample 0 and the visiting order together are all 24 samples. -/
theorem mem_visitOrder : ∀ s : Fin 24, s = 0 ∨ s ∈ visitOrder := by decide

/-- The running maximum over the visiting order, started at sample 0's value, is the fold of `max` over all 24 samples
    from any element `b` that is below everything. -/
theorem runningMax_eq_fold (f : Fin 24 → α) (b : α) (hb : ∀ x, b ≤ x) :
    visitOrder.foldl (fun acc s => max acc (f s)) (f 0) = (Finset.univ : Finset (Fin 24)).fold max b f := by
  have h : ∀ s, f s ≤ (Finset.univ : Finset (Fin 24)).fold max b f :=
    fun s => (Finset.le_fold_max _).2 (Or.inr ⟨s, Finset.mem_univ s, le_rfl⟩)
  apply le_antisymm
  · exact foldl_max_le f _ visitOrder (f 0) (h 0) (fun s _ => h s)
  · refine (Finset.fold_max_le _).2 ⟨hb _, fun s _ => ?_⟩
    rcases mem_visitOrder s with rfl | hs
    · exact start_le_foldl_max f visitOrder (f 0)
    · exact le_foldl_max_of_mem f visitOrder (f 0) s hs

end Cert.Surface
-- ==== Proof.Sample.lean ====
/-
  The kernel's output block as a running maximum of 24 sample responses.

  For sample `s` (neighbour `s mod 3`) the body takes the neighbour's three corners — three-column slices of the
  27-column block of flattened corners, at columns `9 (s mod 3)`, `+ 3`, `+ 6` —, column `s` of each of the three
  barycentric-weight blocks, forms the surface point `α c₁ + β c₂ + γ c₃`, subtracts the face centre, multiplies by
  the 3 × 64 weight block, adds the bias row and clamps at zero (`sampleVec`). It keeps the running maximum of these
  responses, visiting the samples neighbour by neighbour, and stores it. The body's printed operations are exactly
  this composition, for every float instance.
-/
import proofs.«107476_j79757542686884_1_alg».proof.Proof.Gen.KernelIdeal.Frame
import proofs.«107476_j79757542686884_1_alg».proof.Proof.Order
import Idealize.ShloMosaic.Lib.Pipeline.Value

noncomputable section

namespace Cert.Surface

open Cert.KernelIdeal Cert.KernelIdeal.Gen Idealize.ShloMosaic Idealize.ShloMosaic.TcCoe

variable {F : FTy → Type} [FloatOps F]

/-- Three columns from column `o` lie inside the 27-column block of flattened corners when `o + 3 ≤ 27`. -/
theorem inb27 (o : Nat) (h : o + 3 ≤ 27) : ∀ a, (![0, 0, o] : Fin 3 → Nat) a + S1x2048x3.size a ≤ S1x2048x27.size a := fun a =>
  match a with
  | ⟨0, _⟩ => Nat.le_refl 1
  | ⟨1, _⟩ => Nat.le_refl 2048
  | ⟨2, _⟩ => h

/-- Column `s` lies inside a 24-column block of weights when `s + 1 ≤ 24`. -/
theorem inb24 (s : Nat) (h : s + 1 ≤ 24) : ∀ a, (![0, s] : Fin 2 → Nat) a + S2048x1.size a ≤ S2048x24.size a := fun a =>
  match a with
  | ⟨0, _⟩ => Nat.le_refl 2048
  | ⟨1, _⟩ => h

/-- One corner of one neighbour over the block's faces: the three columns from column `o` of the flattened corners. -/
def corner (x1 : Vec F S1x2048x27 .f32) (o : Nat) (h : o + 3 ≤ 27) : FVec F S2048x3 .f32 :=
  shapeCast S2048x3 (View.ld x1 (Rect.unit (s := S1x2048x27) ![0, 0, o] S1x2048x3.size (inb27 o h))) shapeCasts_S1x2048x3_S2048x3

/-- Column `s` of a block of barycentric weights. -/
def weightCol (x : Vec F S2048x24 .f32) (s : Nat) (h : s + 1 ≤ 24) : Vec F S2048x1 .f32 :=
  View.ld x (Rect.unit (s := S2048x24) ![0, s] S2048x1.size (inb24 s h))

/-- One sample's response over the block: `max ((a c₁ + b c₂ + g c₃ − centre) · Wᵀ + bias, 0)`. -/
def sampleVec (cen : FVec F S2048x3 .f32) (wt : FVec F S3x64 .f32) (bias : FVec F S1x64 .f32)
    (c1 c2 c3 : FVec F S2048x3 .f32) (a b g : Vec F S2048x1 .f32) : FVec F S2048x64 .f32 :=
  maximumf
    (addf
      (matmul dot_S2048x3_S3x64_S2048x64_1_0_0_1_n_n none
        (subf (addf (addf (mulf (broadcastTo S2048x3 a broadcasts_S2048x1_S2048x3) c1)
                          (mulf (broadcastTo S2048x3 b broadcasts_S2048x1_S2048x3) c2))
                    (mulf (broadcastTo S2048x3 g broadcasts_S2048x1_S2048x3) c3)) cen)
        wt (constant S2048x64 .f32 0x00000000#32))
      (broadcastTo S2048x64 bias broadcasts_S1x64_S2048x64))
    (broadcast S2048x64 (Scalar.ofBits .f32 0x00000000#32))

section Block

variable (x0 : Vec F S1x2048x3 .f32) (x1 : Vec F S1x2048x27 .f32) (x2 x3 x4 : Vec F S2048x24 .f32)
  (x5 : Vec F S3x64 .f32) (x6 : Vec F S1x64 .f32)

/-- Sample `s`'s response over the block, from the seven input blocks. -/
def sampleAt (s : Fin 24) : FVec F S2048x64 .f32 :=
  sampleVec (k0_pay2 (View.ld x0 r0_0)) (k0_pay3 (View.ld x5 r0_1)) (k0_pay4 (View.ld x6 r0_2))
    (corner x1 (9 * (s.val % 3)) (by omega)) (corner x1 (9 * (s.val % 3) + 3) (by omega)) (corner x1 (9 * (s.val % 3) + 6) (by omega))
    (weightCol x2 s.val (by omega)) (weightCol x3 s.val (by omega)) (weightCol x4 s.val (by omega))

/-- The running maximum of the 24 responses, in the kernel's visiting order. -/
def runningMax : FVec F S2048x64 .f32 :=
  visitOrder.foldl (fun acc s => maximumf acc (sampleAt x0 x1 x2 x3 x4 x5 x6 s)) (sampleAt x0 x1 x2 x3 x4 x5 x6 0)

theorem hz3 : (![0, 0, 0] : Fin 3 → Nat) = fun _ => 0 := funext fun a => by fin_cases a <;> rfl

/-- What the body leaves in the output block is the running maximum, with a leading unit axis. -/
theorem out_eq : out0_7 x0 x1 x2 x3 x4 x5 x6
    = shapeCast S1x2048x64 (runningMax x0 x1 x2 x3 x4 x5 x6) shapeCasts_S2048x64_S1x2048x64 := by
  unfold out0_7
  rw [View.canon_unit_zero hz3]
  rfl

end Block

end Cert.Surface

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SampleValue.lean ====
/-
  The kernel's output block read at an index, over the extended reals.

  At row `r` and kernel column `k` sample `s`'s response is
  `max (∑ c, (α[r,s]·c₁[r,c] + β[r,s]·c₂[r,c] + γ[r,s]·c₃[r,c] − centre[r,c]) · Wᵀ[c,k] + bias[k], 0)`, the corners
  `c₁, c₂, c₃` being columns `9 (s mod 3) + c`, `+ 3`, `+ 6` of the flattened-corner block: the matrix product into a
  zero accumulator is the three-term sum, the column of weights and the bias row are broadcast along the other axis.
  The block's entry is the running maximum of the 24 responses, which is their maximum from −∞.
-/
import proofs.«107476_j79757542686884_1_alg».proof.Proof.Sample
import proofs.«107476_j79757542686884_1_alg».proof.Proof.LibColumnBroadcast
import Idealize.ShloMosaic.Lib.ValueIdx
import Idealize.ShloMosaic.Lib.ValueLayout
import Idealize.ShloMosaic.PureOps.Ideal.Laws

noncomputable section

namespace Cert.Surface

open Cert.KernelIdeal Cert.KernelIdeal.Gen Idealize.ShloMosaic Idealize.ShloMosaic.TcCoe Idealize.ShloMosaic.ValueIdx

/-! ## The 2048×3 by 3×64 product at an index -/

theorem lhs_dot_0 (i : S2048x64.Idx) (q : dot_S2048x3_S3x64_S2048x64_1_0_0_1_n_n.contr.Idx) :
    (dot_S2048x3_S3x64_S2048x64_1_0_0_1_n_n.lhsIdx i q 0).val = (i 0).val := by
  unfold DotDims.lhsIdx
  rw [dif_neg (show ¬(0 : Fin S2048x3.rank) ∈ dot_S2048x3_S3x64_S2048x64_1_0_0_1_n_n.lhsBatch by decide), dif_pos (show (0 : Fin S2048x3.rank) ∈ dot_S2048x3_S3x64_S2048x64_1_0_0_1_n_n.lhsNonContracting by decide)]
  rfl
theorem lhs_dot_1 (i : S2048x64.Idx) (q : dot_S2048x3_S3x64_S2048x64_1_0_0_1_n_n.contr.Idx) :
    (dot_S2048x3_S3x64_S2048x64_1_0_0_1_n_n.lhsIdx i q 1).val = (q ⟨0, by decide⟩).val :=
  dot_S2048x3_S3x64_S2048x64_1_0_0_1_n_n.lhsIdx_val_of_single rfl i q
theorem rhs_dot_0 (i : S2048x64.Idx) (q : dot_S2048x3_S3x64_S2048x64_1_0_0_1_n_n.contr.Idx) :
    (dot_S2048x3_S3x64_S2048x64_1_0_0_1_n_n.rhsIdx i q 0).val = (q ⟨0, by decide⟩).val :=
  dot_S2048x3_S3x64_S2048x64_1_0_0_1_n_n.rhsIdx_val_of_single rfl i q
theorem rhs_dot_1 (i : S2048x64.Idx) (q : dot_S2048x3_S3x64_S2048x64_1_0_0_1_n_n.contr.Idx) :
    (dot_S2048x3_S3x64_S2048x64_1_0_0_1_n_n.rhsIdx i q 1).val = (i 1).val := by
  unfold DotDims.rhsIdx
  rw [dif_neg (show ¬(1 : Fin S3x64.rank) ∈ dot_S2048x3_S3x64_S2048x64_1_0_0_1_n_n.rhsBatch by decide), dif_pos (show (1 : Fin S3x64.rank) ∈ dot_S2048x3_S3x64_S2048x64_1_0_0_1_n_n.rhsNonContracting by decide)]
  rfl

/-- The product into a zero accumulator, at row `r` and column `k`, is the sum over the three contracted coordinates. -/
theorem matmul_apply_rk (L : FVec Ideal S2048x3 .f32) (R : FVec Ideal S3x64 .f32) (r : Fin 2048) (k : Fin 64) :
    matmul dot_S2048x3_S3x64_S2048x64_1_0_0_1_n_n none L R (constant S2048x64 .f32 0x00000000#32) (ix2 r k)
      = ∑ c : Fin 3, L (ix2 r c) * R (ix2 c k) := by
  show FloatOps.matmul dot_S2048x3_S3x64_S2048x64_1_0_0_1_n_n none L R (constant (F := Ideal) S2048x64 .f32 0x00000000#32) (ix2 r k) = _
  rw [Ideal.matmul_constant_zero_apply, ← Equiv.sum_comp (ValueIdx.contrEquiv1 dot_S2048x3_S3x64_S2048x64_1_0_0_1_n_n 3 rfl rfl).symm]
  refine Finset.sum_congr rfl fun c _ => ?_
  have hk := ValueIdx.contrEquiv1_symm_val dot_S2048x3_S3x64_S2048x64_1_0_0_1_n_n 3 rfl rfl c
  have el : dot_S2048x3_S3x64_S2048x64_1_0_0_1_n_n.lhsIdx (ix2 r k) ((ValueIdx.contrEquiv1 dot_S2048x3_S3x64_S2048x64_1_0_0_1_n_n 3 rfl rfl).symm c) = ix2 r c := funext fun a => Fin.ext (by
    match a with
    | ⟨0, _⟩ => exact lhs_dot_0 _ _
    | ⟨1, _⟩ => exact (lhs_dot_1 _ _).trans hk)
  have er : dot_S2048x3_S3x64_S2048x64_1_0_0_1_n_n.rhsIdx (ix2 r k) ((ValueIdx.contrEquiv1 dot_S2048x3_S3x64_S2048x64_1_0_0_1_n_n 3 rfl rfl).symm c) = ix2 c k := funext fun a => Fin.ext (by
    match a with
    | ⟨0, _⟩ => exact (rhs_dot_0 _ _).trans hk
    | ⟨1, _⟩ => exact rhs_dot_1 _ _)
  rw [el, er]

/-! ## The pieces of a sample at an index -/

/-- A corner's entry is the flattened-corner block's, `o` columns further. -/
theorem corner_apply (x1 : Vec Ideal S1x2048x27 .f32) (o : Nat) (h : o + 3 ≤ 27) (r : Fin 2048) (c : Fin 3) :
    corner x1 o h (ix2 r c) = x1 (ix3 (0 : Fin 1) r (⟨o + c.val, by omega⟩ : Fin 27)) := by
  unfold corner
  refine (shapeCast_1ab_ab_apply (a := 2048) (b := 3) _ shapeCasts_S1x2048x3_S2048x3 r c).trans ?_
  show x1 ((Rect.unit (s := S1x2048x27) ![0, 0, o] S1x2048x3.size (inb27 o h)).idx (ix3 (0 : Fin 1) r c)) = _
  refine congrArg x1 (funext fun a => Fin.ext ?_)
  match a with
  | ⟨0, _⟩ => rfl
  | ⟨1, _⟩ => show 0 + 1 * r.val = r.val; omega
  | ⟨2, _⟩ => show o + 1 * c.val = o + c.val; omega

/-- A weight column's entry is the weight block's at that column. -/
theorem weightCol_apply (x : Vec Ideal S2048x24 .f32) (s : Nat) (h : s + 1 ≤ 24) (r : Fin 2048) :
    weightCol x s h (ix2 r (0 : Fin 1)) = x (ix2 r (⟨s, by omega⟩ : Fin 24)) := by
  unfold weightCol
  show x ((Rect.unit (s := S2048x24) ![0, s] S2048x1.size (inb24 s h)).idx (ix2 r (0 : Fin 1))) = _
  refine congrArg x (funext fun a => Fin.ext ?_)
  match a with
  | ⟨0, _⟩ => show 0 + 1 * r.val = r.val; omega
  | ⟨1, _⟩ => show s + 1 * 0 = s; omega

theorem hz2 : (![0, 0] : Fin 2 → Nat) = fun _ => 0 := funext fun a => by fin_cases a <;> rfl

/-- The block of face centres, its leading unit axis dropped. -/
theorem centre_apply (x0 : Vec Ideal S1x2048x3 .f32) (r : Fin 2048) (c : Fin 3) :
    k0_pay2 (View.ld x0 r0_0) (ix2 r c) = x0 (ix3 (0 : Fin 1) r c) := by
  unfold k0_pay2
  rw [View.ld_unit_zero (S := S1x2048x3) hz3]
  exact shapeCast_1ab_ab_apply (a := 2048) (b := 3) x0 shapeCasts_S1x2048x3_S2048x3 r c

/-- The weight block is loaded whole. -/
theorem weight_eq (x5 : Vec Ideal S3x64 .f32) : k0_pay3 (View.ld x5 r0_1) = x5 := by
  unfold k0_pay3
  rw [View.ld_unit_zero (S := S3x64) hz2]
  exact shapeCast_self x5 _

/-- The bias row is loaded whole. -/
theorem bias_eq (x6 : Vec Ideal S1x64 .f32) : k0_pay4 (View.ld x6 r0_2) = x6 := by
  unfold k0_pay4
  rw [View.ld_unit_zero (S := S1x64) hz2]
  exact shapeCast_self x6 _

/-- One sample's response at row `r`, column `k`. -/
theorem sampleVec_apply (cen : FVec Ideal S2048x3 .f32) (wt : FVec Ideal S3x64 .f32) (bias : FVec Ideal S1x64 .f32)
    (c1 c2 c3 : FVec Ideal S2048x3 .f32) (a b g : Vec Ideal S2048x1 .f32) (r : Fin 2048) (k : Fin 64) :
    sampleVec cen wt bias c1 c2 c3 a b g (ix2 r k)
      = max ((∑ c : Fin 3, (((a (ix2 r (0 : Fin 1)) * c1 (ix2 r c) + b (ix2 r (0 : Fin 1)) * c2 (ix2 r c))
                + g (ix2 r (0 : Fin 1)) * c3 (ix2 r c)) - cen (ix2 r c)) * wt (ix2 c k)) + bias (ix2 (0 : Fin 1) k))
          (Ideal.ofBits .f32 0x00000000#32) := by
  unfold sampleVec
  rw [maximumf_apply, addf_apply, matmul_apply_rk, broadcastTo_1b_ab_apply, broadcast_apply]
  simp only [subf_apply, addf_apply, mulf_apply, broadcastTo_a1_ab_apply]
  rfl

section Block

variable (x0 : Vec Ideal S1x2048x3 .f32) (x1 : Vec Ideal S1x2048x27 .f32) (x2 x3 x4 : Vec Ideal S2048x24 .f32)
  (x5 : Vec Ideal S3x64 .f32) (x6 : Vec Ideal S1x64 .f32)

/-- Sample `s`'s response at row `r` and column `k` of the block, from the seven input blocks. -/
def blockResp (r : Fin 2048) (k : Fin 64) (s : Fin 24) : EReal :=
  max ((∑ c : Fin 3, (((x2 (ix2 r s) * x1 (ix3 (0 : Fin 1) r (⟨9 * (s.val % 3) + c.val, by omega⟩ : Fin 27))
              + x3 (ix2 r s) * x1 (ix3 (0 : Fin 1) r (⟨9 * (s.val % 3) + 3 + c.val, by omega⟩ : Fin 27)))
            + x4 (ix2 r s) * x1 (ix3 (0 : Fin 1) r (⟨9 * (s.val % 3) + 6 + c.val, by omega⟩ : Fin 27)))
          - x0 (ix3 (0 : Fin 1) r c)) * x5 (ix2 c k)) + x6 (ix2 (0 : Fin 1) k))
    (Ideal.ofBits .f32 0x00000000#32)

theorem sampleAt_apply (s : Fin 24) (r : Fin 2048) (k : Fin 64) :
    sampleAt x0 x1 x2 x3 x4 x5 x6 s (ix2 r k) = blockResp x0 x1 x2 x3 x4 x5 x6 r k s := by
  unfold sampleAt blockResp
  rw [sampleVec_apply, weight_eq, bias_eq]
  simp only [corner_apply, weightCol_apply, centre_apply]

/-- A running maximum of blocks, read at an index, is the running maximum of the entries there. -/
theorem foldl_maximumf_apply {S : Shape} {ι : Type} (g : ι → FVec Ideal S .f32) (i : S.Idx) :
    ∀ (l : List ι) (a : FVec Ideal S .f32),
      l.foldl (fun acc s => maximumf acc (g s)) a i = l.foldl (fun acc s => max acc (g s i)) (a i)
  | [], _ => rfl
  | s :: l, a => by
    rw [List.foldl_cons, List.foldl_cons, foldl_maximumf_apply g i l (maximumf a (g s))]
    rfl

/-- The pattern of −∞ denotes the bottom of the extended reals. -/
theorem negInf_le (x : EReal) : Ideal.ofBits .f32 0xFF800000#32 ≤ x := by
  have e : Ideal.ofBits .f32 0xFF800000#32 = ⊥ := by simp [Ideal.ofBits, Ideal.ieee]
  rw [e]; exact bot_le

/-- THE BLOCK AT AN INDEX: the maximum from −∞ over the 24 samples of their responses. -/
theorem block_apply (u : Fin 1) (r : Fin 2048) (k : Fin 64) :
    out0_7 x0 x1 x2 x3 x4 x5 x6 (ix3 u r k)
      = (Finset.univ : Finset (Fin 24)).fold max (Ideal.ofBits .f32 0xFF800000#32) (fun s => blockResp x0 x1 x2 x3 x4 x5 x6 r k s) := by
  rw [out_eq]
  refine (shapeCast_ab_1ab_apply (a := 2048) (b := 64) _ shapeCasts_S2048x64_S1x2048x64 u r k).trans ?_
  unfold runningMax
  rw [foldl_maximumf_apply]
  simp only [sampleAt_apply]
  exact runningMax_eq_fold _ _ negInf_le

end Block

end Cert.Surface

end
-- ==== Proof.Spec.lean ====
/-
  The specification both programs meet: for mesh `m`, face `f` and kernel `k`,

    out[m, f, k] = max over the 24 samples `s` of
      max (∑ c, (α[f,s]·corner₀[m,f,s mod 3,c] + β[f,s]·corner₁[m,f,s mod 3,c] + γ[f,s]·corner₂[m,f,s mod 3,c] − centre[m,f,c]) · W[k,c] + b[k], 0),

  the outer maximum taken from −∞. Sample `s` resamples neighbour `s mod 3` (the neighbours tiled eight times along the
  sample axis). Everything is an extended real; the operations are in the order both programs apply them.
-/
import Idealize.ShloMosaic.Lib.ValueIdx
import Idealize.ShloMosaic.PureOps.Ideal
import Mathlib.Data.Finset.Fold

noncomputable section

namespace Cert.Surface

open Idealize.ShloMosaic Idealize.ShloMosaic.ValueIdx

/-- The neighbour sample `s` resamples. -/
def nbr (s : Fin 24) : Fin 3 := ⟨s.val % 3, Nat.mod_lt _ (by decide)⟩

section

variable (cen : FVec Ideal ⟨3, ![8, 16384, 3]⟩ .f32) (nc : FVec Ideal ⟨5, ![8, 16384, 3, 3, 3]⟩ .f32)
  (al be ga : FVec Ideal ⟨2, ![16384, 24]⟩ .f32) (W : FVec Ideal ⟨2, ![64, 3]⟩ .f32) (b : FVec Ideal ⟨1, ![64]⟩ .f32)

/-- Sample `s`'s clamped kernel response at mesh `m`, face `f`, kernel `k`. -/
def response (m : Fin 8) (f : Fin 16384) (k : Fin 64) (s : Fin 24) : EReal :=
  max ((∑ c : Fin 3, (((al (ix2 f s) * nc (ix5 m f (nbr s) (0 : Fin 3) c) + be (ix2 f s) * nc (ix5 m f (nbr s) (1 : Fin 3) c))
            + ga (ix2 f s) * nc (ix5 m f (nbr s) (2 : Fin 3) c)) - cen (ix3 m f c)) * W (ix2 k c)) + b (ix1 k))
    (Ideal.ofBits .f32 0x00000000#32)

/-- The maximum of the responses over the samples, from −∞. -/
def surfaceMaxAt (m : Fin 8) (f : Fin 16384) (k : Fin 64) : EReal :=
  (Finset.univ : Finset (Fin 24)).fold max (Ideal.ofBits .f32 0xFF800000#32) (fun s => response cen nc al be ga W b m f k s)

/-- The whole result array. -/
def surfaceMax : FVec Ideal ⟨3, ![8, 16384, 64]⟩ .f32 := fun i =>
  surfaceMaxAt cen nc al be ga W b ⟨(i 0).val, (i 0).isLt⟩ ⟨(i 1).val, (i 1).isLt⟩ ⟨(i 2).val, (i 2).isLt⟩

theorem surfaceMax_ix3 (m : Fin 8) (f : Fin 16384) (k : Fin 64) :
    surfaceMax cen nc al be ga W b (ix3 m f k) = surfaceMaxAt cen nc al be ga W b m f k := rfl

end

end Cert.Surface

end
-- ==== Proof.KernelValue.lean ====
/-
  The kernel's result array is the specification.

  Grid point `t` = (face block, mesh) stages the mesh's centres and flattened corners for the 2048 faces of the block,
  the block's rows of the three weight arrays, the whole transposed `W` and the bias row, and writes back the
  block of results for that mesh and those faces. So at row `r` of the block the face is `2048·(face block) + r`; column
  `9 n + 3 j + c` of the flattened corners is coordinate `c` of corner `j` of neighbour `n` (the host's reshape keeps the
  row-major position); the transposed weights at (c, k) are `W[k, c]`. With these reads the block's entry, the maximum
  over the samples of their responses, is the specification's at that mesh, face and kernel; the 64 blocks tile the
  result array.
-/
import proofs.«107476_j79757542686884_1_alg».proof.Proof.Gen.KernelIdeal.Value
import proofs.«107476_j79757542686884_1_alg».proof.Proof.SampleValue
import proofs.«107476_j79757542686884_1_alg».proof.Proof.Spec
import Idealize.ShloMosaic.Lib.Pipeline.Value
import Idealize.ShloMosaic.Lib.StableHlo.Run

noncomputable section

namespace Cert.Surface.Kern

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the host prepares -/

/-- The flattened corners: the corner array, reshaped. -/
theorem V_flat (c : Dev nD) : (V m c main_v0 : S8x16384x27.Idx → EReal)
    = shapeCast S8x16384x27 (m ((c : Thread nD τ).loc main_arg2)) shapeCasts_S8x16384x3x3x3_S8x16384x27 := by
  dsimp only [Gen.V, Gen.hostOps0]; after_results; rfl

/-- The transposed weights. -/
theorem V_wt (c : Dev nD) : (V m c main_v1 : S3x64.Idx → EReal)
    = transpose S3x64 [1, 0] (m ((c : Thread nD τ).loc main_arg6)) transposes_S64x3_S3x64_1_0 := by
  dsimp only [Gen.V, Gen.hostOps0]; after_results

/-- The bias as one row. -/
theorem V_bias (c : Dev nD) : (V m c main_v2 : S1x64.Idx → EReal)
    = shapeCast S1x64 (m ((c : Thread nD τ).loc main_arg7)) shapeCasts_S64_S1x64 := by
  dsimp only [Gen.V, Gen.hostOps0]; after_results; rfl

/-- Column `9 n + 3 j + x` of the flattened corners is coordinate `x` of corner `j` of neighbour `n`. -/
theorem flat_apply (a : FVec Ideal S8x16384x3x3x3 .f32) (mm : Fin 8) (ff : Fin 16384) (n j x : Fin 3) (col : Fin 27)
    (hcol : col.val = 9 * n.val + 3 * j.val + x.val) :
    shapeCast S8x16384x27 a shapeCasts_S8x16384x3x3x3_S8x16384x27 (ix3 mm ff col) = a (ix5 mm ff n j x) :=
  shapeCast_apply a shapeCasts_S8x16384x3x3x3_S8x16384x27 _ _ (by
    rw [Shape.rowMajor_val_five, Shape.rowMajor_val_three]
    show (((mm.val * 16384 + ff.val) * 3 + n.val) * 3 + j.val) * 3 + x.val = (mm.val * 16384 + ff.val) * 27 + col.val
    omega)

/-! ## The index maps, decided over the 64 grid points -/

theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = win0_7.index t (1 : Fin 3) ∧ win0_1.index t (2 : Fin 3) = 0
    ∧ win0_2.index t (0 : Fin 2) = win0_7.index t (1 : Fin 3) ∧ win0_2.index t (1 : Fin 2) = 0
    ∧ win0_3.index t (0 : Fin 2) = win0_7.index t (1 : Fin 3) ∧ win0_3.index t (1 : Fin 2) = 0
    ∧ win0_4.index t (0 : Fin 2) = win0_7.index t (1 : Fin 3) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 7 ∧ win0_7.index t (1 : Fin 3) ≤ 7 ∧ win0_7.index t (2 : Fin 3) = 0 :=
  (by decide +kernel : ∀ t : Fin grid0.N, _)

/-- Every (mesh, face block) is some grid point's. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-! ## The input blocks at a point, read off the arrays -/

abbrev blkCentres (c : Dev nD) (t : Fin cfg0.N) : Vec Ideal S1x2048x3 .f32 := iblk m c 0 t
abbrev blkCorners (c : Dev nD) (t : Fin cfg0.N) : Vec Ideal S1x2048x27 .f32 := iblk m c 1 t
abbrev blkAlpha (c : Dev nD) (t : Fin cfg0.N) : Vec Ideal S2048x24 .f32 := iblk m c 2 t
abbrev blkBeta (c : Dev nD) (t : Fin cfg0.N) : Vec Ideal S2048x24 .f32 := iblk m c 3 t
abbrev blkGamma (c : Dev nD) (t : Fin cfg0.N) : Vec Ideal S2048x24 .f32 := iblk m c 4 t
abbrev blkWt (c : Dev nD) (t : Fin cfg0.N) : Vec Ideal S3x64 .f32 := iblk m c 5 t
abbrev blkBias (c : Dev nD) (t : Fin cfg0.N) : Vec Ideal S1x64 .f32 := iblk m c 6 t

section Reads

variable (c : Dev nD) (t : Fin cfg0.N) (u : Fin 1) (r : Fin 2048) (mm : Fin 8) (ff : Fin 16384)
  (hm : mm.val = win0_7.index t (0 : Fin 3)) (hf : ff.val = win0_7.index t (1 : Fin 3) * 2048 + r.val)

include hm hf

theorem read_centre (x : Fin 3) : blkCentres m c t (ix3 u r x) = V m c main_arg0 (ix3 mm ff x) := by
  obtain ⟨e00, e01, e02, -⟩ := idx_facts t
  have hu := u.isLt
  show V m c main_arg0 (((cfg0.win 0).blk t).view.emb (ix3 u r x)) = V m c main_arg0 (ix3 mm ff x)
  refine congrArg _ (funext fun a => Fin.ext ?_)
  match a with
  | ⟨0, _⟩ => show win0_0.index t (0 : Fin 3) * 1 + 1 * u.val = mm.val; omega
  | ⟨1, _⟩ => show win0_0.index t (1 : Fin 3) * 2048 + 1 * r.val = ff.val; omega
  | ⟨2, _⟩ => show win0_0.index t (2 : Fin 3) * 3 + 1 * x.val = x.val; omega

theorem read_corner (col : Fin 27) : blkCorners m c t (ix3 u r col) = V m c main_v0 (ix3 mm ff col) := by
  obtain ⟨-, -, -, e10, e11, e12, -⟩ := idx_facts t
  have hu := u.isLt
  show V m c main_v0 (((cfg0.win 1).blk t).view.emb (ix3 u r col)) = V m c main_v0 (ix3 mm ff col)
  refine congrArg _ (funext fun a => Fin.ext ?_)
  match a with
  | ⟨0, _⟩ => show win0_1.index t (0 : Fin 3) * 1 + 1 * u.val = mm.val; omega
  | ⟨1, _⟩ => show win0_1.index t (1 : Fin 3) * 2048 + 1 * r.val = ff.val; omega
  | ⟨2, _⟩ => show win0_1.index t (2 : Fin 3) * 27 + 1 * col.val = col.val; omega

theorem read_alpha (s : Fin 24) : blkAlpha m c t (ix2 r s) = V m c main_arg3 (ix2 ff s) := by
  obtain ⟨-, -, -, -, -, -, e20, e21, -⟩ := idx_facts t
  show V m c main_arg3 (((cfg0.win 2).blk t).view.emb (ix2 r s)) = V m c main_arg3 (ix2 ff s)
  refine congrArg _ (funext fun a => Fin.ext ?_)
  match a with
  | ⟨0, _⟩ => show win0_2.index t (0 : Fin 2) * 2048 + 1 * r.val = ff.val; omega
  | ⟨1, _⟩ => show win0_2.index t (1 : Fin 2) * 24 + 1 * s.val = s.val; omega

theorem read_beta (s : Fin 24) : blkBeta m c t (ix2 r s) = V m c main_arg4 (ix2 ff s) := by
  obtain ⟨-, -, -, -, -, -, -, -, e30, e31, -⟩ := idx_facts t
  show V m c main_arg4 (((cfg0.win 3).blk t).view.emb (ix2 r s)) = V m c main_arg4 (ix2 ff s)
  refine congrArg _ (funext fun a => Fin.ext ?_)
  match a with
  | ⟨0, _⟩ => show win0_3.index t (0 : Fin 2) * 2048 + 1 * r.val = ff.val; omega
  | ⟨1, _⟩ => show win0_3.index t (1 : Fin 2) * 24 + 1 * s.val = s.val; omega

theorem read_gamma (s : Fin 24) : blkGamma m c t (ix2 r s) = V m c main_arg5 (ix2 ff s) := by
  obtain ⟨-, -, -, -, -, -, -, -, -, -, e40, e41, -⟩ := idx_facts t
  show V m c main_arg5 (((cfg0.win 4).blk t).view.emb (ix2 r s)) = V m c main_arg5 (ix2 ff s)
  refine congrArg _ (funext fun a => Fin.ext ?_)
  match a with
  | ⟨0, _⟩ => show win0_4.index t (0 : Fin 2) * 2048 + 1 * r.val = ff.val; omega
  | ⟨1, _⟩ => show win0_4.index t (1 : Fin 2) * 24 + 1 * s.val = s.val; omega

omit hm hf in
theorem read_wt (x : Fin 3) (k : Fin 64) : blkWt m c t (ix2 x k) = V m c main_v1 (ix2 x k) := by
  obtain ⟨-, -, -, -, -, -, -, -, -, -, -, -, e50, e51, -⟩ := idx_facts t
  show V m c main_v1 (((cfg0.win 5).blk t).view.emb (ix2 x k)) = V m c main_v1 (ix2 x k)
  refine congrArg _ (funext fun a => Fin.ext ?_)
  match a with
  | ⟨0, _⟩ => show win0_5.index t (0 : Fin 2) * 3 + 1 * x.val = x.val; omega
  | ⟨1, _⟩ => show win0_5.index t (1 : Fin 2) * 64 + 1 * k.val = k.val; omega

omit hm hf in
theorem read_bias (k : Fin 64) : blkBias m c t (ix2 u k) = V m c main_v2 (ix2 u k) := by
  obtain ⟨-, -, -, -, -, -, -, -, -, -, -, -, -, -, e60, e61, -⟩ := idx_facts t
  show V m c main_v2 (((cfg0.win 6).blk t).view.emb (ix2 u k)) = V m c main_v2 (ix2 u k)
  refine congrArg _ (funext fun a => Fin.ext ?_)
  match a with
  | ⟨0, _⟩ => show win0_6.index t (0 : Fin 2) * 1 + 1 * u.val = u.val; omega
  | ⟨1, _⟩ => show win0_6.index t (1 : Fin 2) * 64 + 1 * k.val = k.val; omega

/-- A sample's response over the blocks at a point is the specification's response at the block's mesh and the row's face. -/
theorem blockResp_eq (k : Fin 64) (s : Fin 24) :
    blockResp (blkCentres m c t) (blkCorners m c t) (blkAlpha m c t) (blkBeta m c t) (blkGamma m c t) (blkWt m c t) (blkBias m c t) r k s
      = response (V m c main_arg0) (m ((c : Thread nD τ).loc main_arg2)) (V m c main_arg3) (V m c main_arg4) (V m c main_arg5)
          (m ((c : Thread nD τ).loc main_arg6)) (m ((c : Thread nD τ).loc main_arg7)) mm ff k s := by
  unfold blockResp response
  rw [read_alpha m c t r mm ff hm hf s, read_beta m c t r mm ff hm hf s, read_gamma m c t r mm ff hm hf s,
    read_bias m c t (0 : Fin 1) k, V_bias, shapeCast_a_1a_apply]
  refine congrArg (fun z => max (z + _) _) (Finset.sum_congr rfl fun x _ => ?_)
  rw [read_corner m c t (0 : Fin 1) r mm ff hm hf, read_corner m c t (0 : Fin 1) r mm ff hm hf, read_corner m c t (0 : Fin 1) r mm ff hm hf,
    read_centre m c t (0 : Fin 1) r mm ff hm hf x, read_wt m c t x k, V_wt, transpose_ix2_apply, V_flat,
    flat_apply _ mm ff (nbr s) (0 : Fin 3) x _ (by show 9 * (s.val % 3) + x.val = 9 * (s.val % 3) + 3 * 0 + x.val; omega),
    flat_apply _ mm ff (nbr s) (1 : Fin 3) x _ (by show 9 * (s.val % 3) + 3 + x.val = 9 * (s.val % 3) + 3 * 1 + x.val; omega),
    flat_apply _ mm ff (nbr s) (2 : Fin 3) x _ (by show 9 * (s.val % 3) + 6 + x.val = 9 * (s.val % 3) + 3 * 2 + x.val; omega)]

end Reads

/-! ## From blocks to the array -/

/-- The specification of the arrays as the region finds them. -/
abbrev spec (c : Dev nD) : FVec Ideal S8x16384x64 .f32 :=
  surfaceMax (V m c main_arg0) (m ((c : Thread nD τ).loc main_arg2)) (V m c main_arg3) (V m c main_arg4) (V m c main_arg5)
    (m ((c : Thread nD τ).loc main_arg6)) (m ((c : Thread nD τ).loc main_arg7))

/-- WHAT POINT `t` WRITES BACK is block `t` of the specification. -/
theorem flushed_eq (c : Dev nD) (t : Fin cfg0.N) :
    (dats m 0 c).flushed 7 t = ((cfg0.win 7).blk t).view.read (Elt Ideal) (spec m c) := by
  rw [Value.flushed7]
  obtain ⟨-, -, -, -, -, -, -, -, -, -, -, -, -, -, -, -, b0, b1, b2⟩ := idx_facts t
  funext j
  obtain ⟨u, r, k, rfl⟩ : ∃ (u : Fin 1) (r : Fin 2048) (k : Fin 64), j = ix3 u r k := ⟨j 0, j 1, j 2, eq_ix3 j⟩
  have hu := u.isLt; have hr := r.isLt
  let mm : Fin 8 := ⟨win0_7.index t (0 : Fin 3), by omega⟩
  let ff : Fin 16384 := ⟨win0_7.index t (1 : Fin 3) * 2048 + r.val, by omega⟩
  have hemb : ((cfg0.win 7).blk t).view.emb (ix3 u r k) = ix3 mm ff k := funext fun a => Fin.ext (by
    match a with
    | ⟨0, _⟩ => show win0_7.index t (0 : Fin 3) * 1 + 1 * u.val = win0_7.index t (0 : Fin 3); omega
    | ⟨1, _⟩ => show win0_7.index t (1 : Fin 3) * 2048 + 1 * r.val = win0_7.index t (1 : Fin 3) * 2048 + r.val; omega
    | ⟨2, _⟩ => show win0_7.index t (2 : Fin 3) * 64 + 1 * k.val = k.val; omega)
  show out0_7 (blkCentres m c t) (blkCorners m c t) (blkAlpha m c t) (blkBeta m c t) (blkGamma m c t) (blkWt m c t) (blkBias m c t) (ix3 u r k)
      = spec m c (((cfg0.win 7).blk t).view.emb (ix3 u r k))
  rw [hemb]
  refine (block_apply (blkCentres m c t) (blkCorners m c t) (blkAlpha m c t) (blkBeta m c t) (blkGamma m c t) (blkWt m c t) (blkBias m c t) u r k).trans ?_
  show _ = surfaceMaxAt _ _ _ _ _ _ _ mm ff k
  unfold surfaceMaxAt
  exact Finset.fold_congr (fun s _ => blockResp_eq m c t r mm ff rfl rfl k s)

/-- An index of the array is in point `t`'s block iff each coordinate is in the block's range on its axis. -/
theorem mem_blk (t : Fin cfg0.N) (i : S8x16384x64.Idx) :
    i ∈ ((cfg0.win 7).blk t).view.set ↔ ∀ a : Fin 3, win0_7.index t a * S1x2048x64.size a ≤ (i a).val ∧ (i a).val < win0_7.index t a * S1x2048x64.size a + S1x2048x64.size a := by
  show i ∈ ((View.whole main_v3).slice (win0_7.rect t)).set ↔ _
  rw [View.set_slice_whole, Rect.mem_set_unit]
  exact Iff.rfl

/-- The 64 blocks tile the result array. -/
theorem covered (i : S8x16384x64.Idx) : ∃ t : Fin cfg0.N, (cfg0.win 7).flush t = true ∧ i ∈ ((cfg0.win 7).blk t).view.set := by
  have hi0 : (i 0).val < 8 := (i 0).isLt
  have hi1 : (i 1).val < 16384 := (i 1).isLt
  have hi2 : (i 2).val < 64 := (i 2).isLt
  obtain ⟨t, ht⟩ := idx_onto ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-- THE RESULT ARRAY after the run is the specification of the argument arrays. -/
theorem final (c : Dev nD) : (dats m 0 c).arrAt 7 cfg0.N
    = surfaceMax (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [(dats m 0 c).arrAt_eq_of_cover 7 (spec m c) (fun t _ => flushed_eq m c t) covered]
  unfold spec
  rw [V_main_arg0, V_main_arg3, V_main_arg4, V_main_arg5]

/-- The kernel's run, its result array named as the specification. -/
theorem run : θ_run defs (onTc (τ := τ) (main (F := Ideal))) ⟨m, fun _ => 0, ρ⟩ fun r => ∀ c : Dev nD,
      r.2.mem ((c : Thread nD τ).loc main_v3)
        = surfaceMax (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Surface.Kern

end
-- ==== Proof.RefValue.lean ====
/-
  The reference's result is the specification.

  Its last operation reduces the clamped responses over the sample axis with `max` from −∞: at (m, f, k) the fold over
  the 24 coordinates of that axis. Before it, at (m, f, s, k): the tiled corners read neighbour `s mod 3` (eight copies
  of the three neighbours joined along the axis), the three corner slices and the dropped unit axis pick the corner, the
  weights and the centre are broadcast along the axes they lack, and the contraction with `W` over the coordinate axis
  is the three-term sum.
-/
import proofs.«107476_j79757542686884_1_alg».proof.Proof.Gen.ReferenceIdeal.Read
import proofs.«107476_j79757542686884_1_alg».proof.Proof.Spec
import Idealize.ShloMosaic.Lib.Pipeline.Value
import Idealize.ShloMosaic.Lib.ValueIdx
import Idealize.ShloMosaic.PureOps.Ideal.Laws

noncomputable section

namespace Cert.Surface.Ref

open Cert.ReferenceIdeal Cert.ReferenceIdeal.Gen Cert.ReferenceIdeal.Read Idealize.ShloMosaic Idealize.ShloMosaic.TcCoe Idealize.ShloMosaic.ValueIdx

/-! ## The tiled corners -/

/-- Eight copies of the corner array joined along the neighbour axis read, at sample `s`, neighbour `s mod 3`. -/
theorem tiled_apply (x2 : FVec Ideal S8x16384x3x3x3 .f32) (m : Fin 8) (f : Fin 16384) (s : Fin 24) (a b : Fin 3) :
    val_main_v0 (F := Ideal) x2 (ix5 m f s a b) = x2 (ix5 m f (nbr s) a b) := by
  unfold val_main_v0
  refine concatenate_replicate_apply (t := S8x16384x24x3x3) (s₁ := S8x16384x3x3x3) 2 8 x2 _ rfl (ix5 m f s a b) (ix5 m f (nbr s) a b) rfl ?_
  intro ax hax
  match ax with
  | ⟨0, _⟩ => rfl
  | ⟨1, _⟩ => rfl
  | ⟨2, _⟩ => exact absurd rfl hax
  | ⟨3, _⟩ => rfl
  | ⟨4, _⟩ => rfl

/-! ## The composed index maps, by coordinates -/

section Idx

variable (m : Fin 8) (f : Fin 16384) (s : Fin 24) (k : Fin 64) (c : Fin 3)

theorem lidx_eq : lidx_main_v21 (ix4 m f s k) c = ix4 m f s c :=
  funext fun a => Fin.ext (by match a with | ⟨0, _⟩ => rfl | ⟨1, _⟩ => rfl | ⟨2, _⟩ => rfl | ⟨3, _⟩ => rfl)

theorem ridx_eq : ridx_main_v21 (ix4 m f s k) c = ix2 k c :=
  funext fun a => Fin.ext (by match a with | ⟨0, _⟩ => rfl | ⟨1, _⟩ => rfl)

/-- Dropping the unit corner axis: (m, f, s, c) comes from (m, f, s, 0, c). -/
theorem unit_eq : idx_main_v2 (ix4 m f s c) = ix5 m f s (0 : Fin 1) c := by
  have hm := m.isLt; have hf := f.isLt; have hs := s.isLt; have hc := c.isLt
  refine funext fun a => Fin.ext ?_
  match a with
  | ⟨0, _⟩ => show (((m.val * 16384 + f.val) * 24 + s.val) * 3 + c.val) / 1179648 = m.val; omega
  | ⟨1, _⟩ => show (((m.val * 16384 + f.val) * 24 + s.val) * 3 + c.val) / 72 % 16384 = f.val; omega
  | ⟨2, _⟩ => show (((m.val * 16384 + f.val) * 24 + s.val) * 3 + c.val) / 3 % 24 = s.val; omega
  | ⟨3, _⟩ => rfl
  | ⟨4, _⟩ => show (((m.val * 16384 + f.val) * 24 + s.val) * 3 + c.val) % 3 = c.val; omega

theorem unit_eq4 : idx_main_v4 (ix4 m f s c) = ix5 m f s (0 : Fin 1) c := unit_eq m f s c
theorem unit_eq6 : idx_main_v6 (ix4 m f s c) = ix5 m f s (0 : Fin 1) c := unit_eq m f s c

theorem corner0_eq : idx_main_v1 (ix5 m f s (0 : Fin 1) c) = ix5 m f s (0 : Fin 3) c :=
  funext fun a => Fin.ext (by match a with | ⟨0, _⟩ => rfl | ⟨1, _⟩ => rfl | ⟨2, _⟩ => rfl | ⟨3, _⟩ => rfl | ⟨4, _⟩ => rfl)
theorem corner1_eq : idx_main_v3 (ix5 m f s (0 : Fin 1) c) = ix5 m f s (1 : Fin 3) c :=
  funext fun a => Fin.ext (by match a with | ⟨0, _⟩ => rfl | ⟨1, _⟩ => rfl | ⟨2, _⟩ => rfl | ⟨3, _⟩ => rfl | ⟨4, _⟩ => rfl)
theorem corner2_eq : idx_main_v5 (ix5 m f s (0 : Fin 1) c) = ix5 m f s (2 : Fin 3) c :=
  funext fun a => Fin.ext (by match a with | ⟨0, _⟩ => rfl | ⟨1, _⟩ => rfl | ⟨2, _⟩ => rfl | ⟨3, _⟩ => rfl | ⟨4, _⟩ => rfl)

theorem alpha_eq : idx_main_v7 (idx_main_v10 (ix4 m f s c)) = ix2 f s :=
  funext fun a => Fin.ext (by match a with | ⟨0, _⟩ => rfl | ⟨1, _⟩ => rfl)
theorem beta_eq : idx_main_v8 (idx_main_v12 (ix4 m f s c)) = ix2 f s :=
  funext fun a => Fin.ext (by match a with | ⟨0, _⟩ => rfl | ⟨1, _⟩ => rfl)
theorem gamma_eq : idx_main_v9 (idx_main_v15 (ix4 m f s c)) = ix2 f s :=
  funext fun a => Fin.ext (by match a with | ⟨0, _⟩ => rfl | ⟨1, _⟩ => rfl)

theorem centre_eq : idx_main_v18 (idx_main_v19 (ix4 m f s c)) = ix3 m f c :=
  funext fun a => Fin.ext (by match a with | ⟨0, _⟩ => rfl | ⟨1, _⟩ => rfl | ⟨2, _⟩ => rfl)

theorem bias_idx_eq : idx_main_v22 (idx_main_v23 (ix4 m f s k)) = ix1 k :=
  funext fun a => Fin.ext (by match a with | ⟨0, _⟩ => rfl)

end Idx

/-! ## The clamped response, and its maximum over the samples -/

section

variable (x0 : FVec Ideal S8x16384x3 .f32) (x2 : FVec Ideal S8x16384x3x3x3 .f32) (x3 x4 x5 : FVec Ideal S16384x24 .f32)
  (x6 : FVec Ideal S64x3 .f32) (x7 : FVec Ideal S64 .f32)

/-- The clamped response array at (m, f, s, k) is sample `s`'s response. -/
theorem clamped_apply (m : Fin 8) (f : Fin 16384) (s : Fin 24) (k : Fin 64) :
    val_main_v25 (F := Ideal) x0 x2 x3 x4 x5 x6 x7 (ix4 m f s k) = response x0 x2 x3 x4 x5 x6 x7 m f k s := by
  rw [val_main_v25_apply, val_main_v24_apply, val_main_v21_apply, val_main_v23_apply, val_main_v22_apply,
    val_main_call0_v0_apply, val_main_call0_cst_apply, bias_idx_eq]
  simp only [lidx_eq, ridx_eq, val_main_v20_apply, val_main_v17_apply, val_main_v14_apply, val_main_v11_apply, val_main_v13_apply,
    val_main_v16_apply, val_main_v10_apply, val_main_v12_apply, val_main_v15_apply, val_main_v7_apply, val_main_v8_apply,
    val_main_v9_apply, val_main_v19_apply, val_main_v18_apply, val_main_v2_apply, val_main_v4_apply, val_main_v6_apply,
    val_main_v1_apply, val_main_v3_apply, val_main_v5_apply,
    unit_eq, unit_eq4, unit_eq6, corner0_eq, corner1_eq, corner2_eq, alpha_eq, beta_eq, gamma_eq, centre_eq, tiled_apply]
  rfl

theorem reduces_samples : S8x16384x24x64.Reduces [2] S8x16384x64 := by decide

/-- The reduced index (m, f, k) with sample `s` put back is (m, f, s, k). -/
theorem lift_eq (m : Fin 8) (f : Fin 16384) (k : Fin 64) (s : Fin 24) :
    reduces_samples.lift (ix3 m f k) s = ix4 m f s k :=
  funext fun a => Fin.ext (by match a with | ⟨0, _⟩ => rfl | ⟨1, _⟩ => rfl | ⟨2, _⟩ => rfl | ⟨3, _⟩ => rfl)

/-- THE REFERENCE'S RESULT is the specification. -/
theorem result_eq : val_main_v26 (F := Ideal) x0 x2 x3 x4 x5 x6 x7 = surfaceMax x0 x2 x3 x4 x5 x6 x7 := by
  funext i
  obtain ⟨m, f, k, rfl⟩ : ∃ (m : Fin 8) (f : Fin 16384) (k : Fin 64), i = ix3 m f k := ⟨i 0, i 1, i 2, eq_ix3 i⟩
  rw [surfaceMax_ix3]
  unfold val_main_v26 surfaceMaxAt
  rw [Host.reduce_eq_fold_single FloatOps.maximumf _ _ reducesTo_S8x16384x24x64_S8x16384x64_d2 reduces_samples h_S_ (ix3 m f k)]
  show (Finset.univ : Finset (Fin 24)).fold max (Ideal.ofBits .f32 0xFF800000#32)
      (fun s => val_main_v25 (F := Ideal) x0 x2 x3 x4 x5 x6 x7 (reduces_samples.lift (ix3 m f k) s)) = _
  refine Finset.fold_congr (fun s _ => ?_)
  exact (congrArg (val_main_v25 (F := Ideal) x0 x2 x3 x4 x5 x6 x7) (lift_eq m f k s)).trans (clamped_apply x0 x2 x3 x4 x5 x6 x7 m f s k)

end

end Cert.Surface.Ref

end
-- ==== Proof.lean ====
/-
  Surface convolution over mesh faces: for every mesh, face and kernel the result is the maximum, over 24 barycentric
  samples of the face's three neighbours, of the clamped response `max ((α c₁ + β c₂ + γ c₃ − centre) · W[k] + b[k], 0)`.

  The kernel computes it face block by face block: per grid point a running maximum of the 24 responses, each a
  3-term matrix product of the resampled direction with the transposed weights, visiting the samples neighbour by
  neighbour. The reference tiles the neighbours eight times, forms all responses at once with one contraction, and
  reduces over the sample axis from −∞. Over the extended reals both apply the same operations in the same order to
  the same entries; only the order of the outer maximum differs, and a maximum over a finite set does not depend on
  the order (Proof/Order.lean). Proof/Spec.lean states the common value; Proof/KernelValue.lean shows the kernel's
  result array holds it (the body at an index in Proof/SampleValue.lean, over Proof/Sample.lean's restatement of the
  body), Proof/RefValue.lean that the reference's does. No finiteness is needed: no algebraic law is used that fails
  at an infinity. The idealization rewrote no operation, so nothing is owed for it.
-/
import proofs.«107476_j79757542686884_1_alg».proof.Defs
import proofs.«107476_j79757542686884_1_alg».proof.Proof.Gen.Kernel
import proofs.«107476_j79757542686884_1_alg».proof.Proof.Gen.Kernel.Skeleton
import proofs.«107476_j79757542686884_1_alg».proof.Proof.Gen.Kernel.Launch
import proofs.«107476_j79757542686884_1_alg».proof.Proof.Gen.Kernel.Points
import proofs.«107476_j79757542686884_1_alg».proof.Proof.Gen.Kernel.Frame
import proofs.«107476_j79757542686884_1_alg».proof.Proof.Gen.KernelIdeal
import proofs.«107476_j79757542686884_1_alg».proof.Proof.Gen.KernelIdeal.Skeleton
import proofs.«107476_j79757542686884_1_alg».proof.Proof.Gen.KernelIdeal.Launch
import proofs.«107476_j79757542686884_1_alg».proof.Proof.Gen.KernelIdeal.Points
import proofs.«107476_j79757542686884_1_alg».proof.Proof.Gen.KernelIdeal.Frame
import proofs.«107476_j79757542686884_1_alg».proof.Proof.Gen.ReferenceIdeal
import proofs.«107476_j79757542686884_1_alg».proof.Proof.Gen.Pre_finite_inputs
import proofs.«107476_j79757542686884_1_alg».proof.Proof.Gen.KernelIdeal.Value
import proofs.«107476_j79757542686884_1_alg».proof.Proof.Gen.ReferenceIdeal.Run
import proofs.«107476_j79757542686884_1_alg».proof.Proof.Gen.ReferenceIdeal.Read
import proofs.«107476_j79757542686884_1_alg».proof.Proof.KernelValue
import proofs.«107476_j79757542686884_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's array of their (agreeing) arguments. -/
theorem algebraic : Cert.algebraic_KernelIdeal_ReferenceIdeal := by
  intro m ρ m' ρ' _ hagree
  refine ⟨_, Cert.Surface.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Surface.Ref.result_eq, (hagree c).1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
